-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S1x256 : Shape := ⟨2, ![1, 256]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S16384x128 .f32) (main_arg1 : IVec S2x524288 32) (main_arg2 : FVec F S1x256 .f32) (main_arg3 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16384x128 : Shape := ⟨2, ![16384, 128]⟩
abbrev S2x524288 : Shape := ⟨2, ![2, 524288]⟩
abbrev S1x256 : Shape := ⟨2, ![1, 256]⟩
abbrev S1 : Shape := ⟨1, ![1]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S1x128 : Shape := ⟨2, ![1, 128]⟩
abbrev S1x1 : Shape := ⟨2, ![1, 1]⟩
abbrev S8192x128 : Shape := ⟨2, ![8192, 128]⟩
abbrev S1x8192 : Shape := ⟨2, ![1, 8192]⟩
abbrev S16384x16384 : Shape := ⟨2, ![16384, 16384]⟩
abbrev S524288x2 : Shape := ⟨2, ![524288, 2]⟩

abbrev nBuf : Space → Nat
  | .hbm => 51
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S1x256, .f32⟩
  | .hbm, ⟨3, _⟩ => ⟨S1, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S_, .i32⟩
  | .hbm, ⟨9, _⟩ => ⟨S524288, .i32⟩
  | .hbm, ⟨10, _⟩ => ⟨S524288, .i1⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S524288, .i32⟩
  | .hbm, ⟨15, _⟩ => ⟨S524288x1, .i32⟩
  | .hbm, ⟨16, _⟩ => ⟨S524288x128, .f32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x128, .f32⟩
  | .hbm, ⟨26, _⟩ => ⟨S1x128, .f32⟩
  | .hbm, ⟨27, _⟩ => ⟨S1x128, .f32⟩
  | .hbm, ⟨28, _⟩ => ⟨S1x1, .f32⟩
  | .hbm, ⟨29, _⟩ => ⟨S1x524288, .f32⟩
  | .hbm, ⟨30, _⟩ => ⟨S524288, .f32⟩
  | .hbm, ⟨31, _⟩ => ⟨S_, .f32⟩
  | .hbm, ⟨32, _⟩ => ⟨S16384x16384, .f32⟩
  | .hbm, ⟨33, _⟩ => ⟨S_, .i32⟩
  | .hbm, ⟨34, _⟩ => ⟨S524288, .i32⟩
  | .hbm, ⟨35, _⟩ => ⟨S524288, .i1⟩
  | .hbm, ⟨36, _⟩ => ⟨S_, .i32⟩
  | .hbm, ⟨37, _⟩ => ⟨S524288, .i32⟩
  | .hbm, ⟨38, _⟩ => ⟨S524288, .i32⟩
  | .hbm, ⟨39, _⟩ => ⟨S524288, .i32⟩
  | .hbm, ⟨40, _⟩ => ⟨S_, .i32⟩
  | .hbm, ⟨41, _⟩ => ⟨S524288, .i32⟩
  | .hbm, ⟨42, _⟩ => ⟨S524288, .i1⟩
  | .hbm, ⟨43, _⟩ => ⟨S_, .i32⟩
  | .hbm, ⟨44, _⟩ => ⟨S524288, .i32⟩
  | .hbm, ⟨45, _⟩ => ⟨S524288, .i32⟩
  | .hbm, ⟨46, _⟩ => ⟨S524288, .i32⟩
  | .hbm, ⟨47, _⟩ => ⟨S524288x1, .i32⟩
  | .hbm, ⟨48, _⟩ => ⟨S524288x1, .i32⟩
  | .hbm, ⟨49, _⟩ => ⟨S524288x2, .i32⟩
  | .hbm, ⟨50, _⟩ => ⟨S16384x16384, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x128, .f32⟩
  | .local _ .vmem, ⟨5, _⟩ => ⟨S1x128, .f32⟩
  | .local _ .vmem, ⟨6, _⟩ => ⟨S1x1, .f32⟩
  | .local _ .vmem, ⟨7, _⟩ => ⟨S1x8192, .f32⟩
  | .local _ .vmem, ⟨8, _⟩ => ⟨S1x8192, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  slices_S1x256_S1x128_0_0 : S1x256.Slices ![0, 0] S1x128
  slices_S1x256_S1x128_0_128 : S1x256.Slices ![0, 128] S1x128
  shapeCasts_S1_S1x1 : S1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  bcast_S_S16384x16384 : S_.BroadcastsInDim S16384x16384 (![] : Fin 0 → Fin S16384x16384.rank)
  concatenates_S524288x1_S524288x1_S524288x2_d1 : Shape.Concatenates [S524288x1, S524288x1] S524288x2 1
  gather_S16384x128_S524288x1_S524288x128_1_0_n_n_0_1_1128_wf : GatherDims.WF S16384x128 S524288x1 S524288x128 [1] [0] [] [0] [] 1 ![1, 128]
  dot_S1x128_S8192x128_S1x8192_1_1_0_0_n_n_wf : DotDims.WF S1x128 S8192x128 S1x8192 [1] [1] [0] [0] [] []
  scatter_S16384x16384_S524288x2_S524288_n_01_01_1_wf : ScatterDims.WF S16384x16384 S524288x2 S524288 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x524288.size a
  hwx0_5 : ∀ i : grid0.Coords, EltTy.bits .f32 = 32 ∨ (Rect.block (s := S1x524288) S1x8192.size (cc0_transform_5 i) (hinb0_5 i)).WholeWords (EltTy.packing .f32)

variable [Facts₀]

def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def dot_S1x128_S8192x128_S1x8192_1_1_0_0_n_n : DotDims S1x128 S8192x128 S1x8192 where
  lhsContracting := [1]
  rhsContracting := [1]
  lhsNonContracting := [0]
  rhsNonContracting := [0]
  lhsBatch := []
  rhsBatch := []
  wf := dot_S1x128_S8192x128_S1x8192_1_1_0_0_n_n_wf
def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf

abbrev win0_0 : Pipeline.Window sig grid0 :=
  Pipeline.Window.ofSpec (Memref.whole main_v10) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S2x524288 : Shape := ⟨2, ![2, 524288]⟩
abbrev S1x256 : Shape := ⟨2, ![1, 256]⟩
abbrev S1 : Shape := ⟨1, ![1]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S524288x256 : Shape := ⟨2, ![524288, 256]⟩
abbrev S256x1 : Shape := ⟨2, ![256, 1]⟩
abbrev S1x1 : Shape := ⟨2, ![1, 1]⟩
abbrev S16384x16384 : Shape := ⟨2, ![16384, 16384]⟩
abbrev S524288x2 : Shape := ⟨2, ![524288, 2]⟩

abbrev nBuf : Space → Nat
  | .hbm => 57
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S1x256, .f32⟩
  | .hbm, ⟨3, _⟩ => ⟨S1, .f32⟩
  | .hbm, ⟨4, _⟩ => ⟨S1x524288, .i32⟩
  | .hbm, ⟨5, _⟩ => ⟨S524288, .i32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S524288x1, .i32⟩
  | .hbm, ⟨14, _⟩ => ⟨S524288x128, .f32⟩
  | .hbm, ⟨15, _⟩ => ⟨S1x524288, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x128, .f32⟩
  | .hbm, ⟨26, _⟩ => ⟨S524288x256, .f32⟩
  | .hbm, ⟨27, _⟩ => ⟨S256x1, .f32⟩
  | .hbm, ⟨28, _⟩ => ⟨S524288x1, .f32⟩
  | .hbm, ⟨29, _⟩ => ⟨S1x1, .f32⟩
  | .hbm, ⟨30, _⟩ => ⟨S524288x1, .f32⟩
  | .hbm, ⟨31, _⟩ => ⟨S524288x1, .f32⟩
  | .hbm, ⟨32, _⟩ => ⟨S524288, .f32⟩
  | .hbm, ⟨33, _⟩ => ⟨S_, .f32⟩
  | .hbm, ⟨34, _⟩ => ⟨S16384x16384, .f32⟩
  | .hbm, ⟨35, _⟩ => ⟨S1x524288, .i32⟩
  | .hbm, ⟨36, _⟩ => ⟨S524288, .i32⟩
  | .hbm, ⟨37, _⟩ => ⟨S1x524288, .i32⟩
  | .hbm, ⟨38, _⟩ => ⟨S524288, .i32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S524288x1, .i32⟩
  | .hbm, ⟨55, _⟩ => ⟨S524288x2, .i32⟩
  | .hbm, ⟨56, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  slices_S2x524288_S1x524288_1_0 : S2x524288.Slices ![1, 0] S1x524288
  concatenates_S524288x128_S524288x128_S524288x256_d1 : Shape.Concatenates [S524288x128, S524288x128] S524288x256 1
  transposes_S1x256_S256x1_1_0 : S1x256.Transposes [1, 0] S256x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  bcast_S_S16384x16384 : S_.BroadcastsInDim S16384x16384 (![] : Fin 0 → Fin S16384x16384.rank)
  concatenates_S524288x1_S524288x1_S524288x2_d1 : Shape.Concatenates [S524288x1, S524288x1] S524288x2 1
  gather_S16384x128_S524288x1_S524288x128_1_0_n_n_0_1_1128_wf : GatherDims.WF S16384x128 S524288x1 S524288x128 [1] [0] [] [0] [] 1 ![1, 128]
  dot_S524288x256_S256x1_S524288x1_1_0_0_1_n_n_wf : DotDims.WF S524288x256 S256x1 S524288x1 [1] [0] [0] [1] [] []
  scatter_S16384x16384_S524288x2_S524288_n_01_01_1_wf : ScatterDims.WF S16384x16384 S524288x2 S524288 [] [0, 1] [0, 1] 1

variable [Facts₀]

def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf
def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf

class Facts : Prop extends Facts₀ where

variable [Facts]
-- ==== Proof.KernelBody.lean ====
/-
  THE KERNEL BODY'S VALUE AT ONE EDGE.

  At a grid point the body holds a block of 8192 edges: the two endpoint feature blocks `x0`, `x1` (8192 × 128 each), the
  two weight halves `x2`, `x3` (1 × 128 each) and the bias `x4` (1 × 1). It stores the row (1 × 8192)

      out (0, e) = (∑ k, x2 (0, k) · x0 (e, k)  +  ∑ k, x3 (0, k) · x1 (e, k)) + x4 (0, 0).

  Each product contracts the second axis of BOTH operands (a weight row against every row of a feature block) into a zero
  accumulator, so at the ideal values it is the plain sum over the 128 shared coordinates; the changes of float format are
  the identity there and the reshapes to the same shape are the identity everywhere.
-/
import proofs.«119529_j29703993819993_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The operand indices of the row-against-rows product -/

/-- The weight operand's row is the result's row (there is one). -/
theorem lhs_axis0 (i : S1x8192.Idx) (q : dot_S1x128_S8192x128_S1x8192_1_1_0_0_n_n.contr.Idx) :
    (dot_S1x128_S8192x128_S1x8192_1_1_0_0_n_n.lhsIdx i q 0).val = (i 0).val := by
  unfold DotDims.lhsIdx
  rw [dif_neg (show ¬(0 : Fin S1x128.rank) ∈ dot_S1x128_S8192x128_S1x8192_1_1_0_0_n_n.lhsBatch by decide), dif_pos (show (0 : Fin S1x128.rank) ∈ dot_S1x128_S8192x128_S1x8192_1_1_0_0_n_n.lhsNonContracting by decide)]
  rfl
/-- The weight operand's column is the contracted coordinate. -/
theorem lhs_axis1 (i : S1x8192.Idx) (q : dot_S1x128_S8192x128_S1x8192_1_1_0_0_n_n.contr.Idx) :
    (dot_S1x128_S8192x128_S1x8192_1_1_0_0_n_n.lhsIdx i q 1).val = (q ⟨0, by decide⟩).val :=
  dot_S1x128_S8192x128_S1x8192_1_1_0_0_n_n.lhsIdx_val_of_single rfl i q
/-- The feature operand's row is the result's column: the edge. -/
theorem rhs_axis0 (i : S1x8192.Idx) (q : dot_S1x128_S8192x128_S1x8192_1_1_0_0_n_n.contr.Idx) :
    (dot_S1x128_S8192x128_S1x8192_1_1_0_0_n_n.rhsIdx i q 0).val = (i 1).val := by
  unfold DotDims.rhsIdx
  rw [dif_neg (show ¬(0 : Fin S8192x128.rank) ∈ dot_S1x128_S8192x128_S1x8192_1_1_0_0_n_n.rhsBatch by decide), dif_pos (show (0 : Fin S8192x128.rank) ∈ dot_S1x128_S8192x128_S1x8192_1_1_0_0_n_n.rhsNonContracting by decide)]
  rfl
/-- The feature operand's column is the contracted coordinate. -/
theorem rhs_axis1 (i : S1x8192.Idx) (q : dot_S1x128_S8192x128_S1x8192_1_1_0_0_n_n.contr.Idx) :
    (dot_S1x128_S8192x128_S1x8192_1_1_0_0_n_n.rhsIdx i q 1).val = (q ⟨0, by decide⟩).val :=
  dot_S1x128_S8192x128_S1x8192_1_1_0_0_n_n.rhsIdx_val_of_single rfl i q

/-! ## One product at an edge -/

/-- A weight row against a feature block, into zero, read at edge `e`: the sum over the 128 feature coordinates of weight
    times feature. -/
theorem rowdot_apply (w : FVec Ideal S1x128 .bf16) (x : FVec Ideal S8192x128 .bf16) (e : Fin 8192) :
    matmul dot_S1x128_S8192x128_S1x8192_1_1_0_0_n_n none w x (constant S1x8192 .f32 0x00000000#32) (ix2 (0 : Fin 1) e)
      = ∑ k : Fin 128, w (ix2 (0 : Fin 1) k) * x (ix2 e k) := by
  simp only [matmul]
  rw [Ideal.matmul_constant_zero_apply, ← Equiv.sum_comp (contrEquiv1 dot_S1x128_S8192x128_S1x8192_1_1_0_0_n_n 128 rfl rfl).symm]
  refine Finset.sum_congr rfl fun k _ => ?_
  have hk := contrEquiv1_symm_val dot_S1x128_S8192x128_S1x8192_1_1_0_0_n_n 128 rfl rfl k
  have el : dot_S1x128_S8192x128_S1x8192_1_1_0_0_n_n.lhsIdx (ix2 (0 : Fin 1) e) ((contrEquiv1 dot_S1x128_S8192x128_S1x8192_1_1_0_0_n_n 128 rfl rfl).symm k) = ix2 (0 : Fin 1) k := funext fun a => Fin.ext (by
    match a with
    | ⟨0, _⟩ => exact lhs_axis0 _ _
    | ⟨1, _⟩ => exact (lhs_axis1 _ _).trans hk)
  have er : dot_S1x128_S8192x128_S1x8192_1_1_0_0_n_n.rhsIdx (ix2 (0 : Fin 1) e) ((contrEquiv1 dot_S1x128_S8192x128_S1x8192_1_1_0_0_n_n 128 rfl rfl).symm k) = ix2 e k := funext fun a => Fin.ext (by
    match a with
    | ⟨0, _⟩ => exact rhs_axis0 _ _
    | ⟨1, _⟩ => exact (rhs_axis1 _ _).trans hk)
  rw [el, er]

/-! ## The stored row at an edge -/

/-- The bias, broadcast along the row, reads the one bias entry everywhere. -/
theorem bias_apply (x4 : FVec Ideal S1x1 .f32) (e : Fin 8192) :
    broadcastTo S1x8192 x4 broadcasts_S1x1_S1x8192 (ix2 (0 : Fin 1) e) = x4 (ix2 (0 : Fin 1) (0 : Fin 1)) :=
  broadcastTo_apply x4 broadcasts_S1x1_S1x8192 (ix2 (0 : Fin 1) e) (ix2 (0 : Fin 1) (0 : Fin 1)) (fun a => match a with
    | ⟨0, _⟩ => by show (0 : Nat) = if (1 : Nat) = 1 then 0 else _; rw [if_pos rfl]
    | ⟨1, _⟩ => by show (0 : Nat) = if (1 : Nat) = 1 then 0 else _; rw [if_pos rfl])

/-- THE BODY'S STORED VALUE at edge `e` of the block: first weight half against the first endpoint's features, plus second
    half against the second endpoint's, plus the bias. -/
theorem pay_apply (x0 x1 : Vec Ideal S8192x128 .f32) (x2 x3 : Vec Ideal S1x128 .f32) (x4 : Vec Ideal S1x1 .f32) (e : Fin 8192) :
    k0_pay1 (F := Ideal) x0 x1 x2 x3 x4 (ix2 (0 : Fin 1) e)
      = (∑ k : Fin 128, x2 (ix2 (0 : Fin 1) k) * x0 (ix2 e k) + ∑ k : Fin 128, x3 (ix2 (0 : Fin 1) k) * x1 (ix2 e k))
        + x4 (ix2 (0 : Fin 1) (0 : Fin 1)) := by
  unfold k0_pay1
  simp only [shapeCast_self]
  refine (addf_apply _ _ _).trans ?_
  refine congrArg₂ (· + ·) ((addf_apply _ _ _).trans (congrArg₂ (· + ·) ?_ ?_)) ?_
  · exact rowdot_apply _ _ e
  · exact rowdot_apply _ _ e
  · exact bias_apply x4 e

end Cert.KernelIdeal.Body

end
-- ==== Proof.EdgeScore.lean ====
/-
  THE EDGE SCORE, as one function of the gathered endpoint features.

  For an edge `e` with endpoint feature rows `f1 e`, `f2 e` (each of 128 entries), a weight row `W` of 256 entries and a
  bias `b`, the linear layer on the concatenated features `[f1 e | f2 e]` is

      score e = (∑ k < 128, W k · f1 e k  +  ∑ k < 128, W (128 + k) · f2 e k) + b.

  The kernel computes it in exactly this grouping (two products of a weight half with a feature block, added, then the
  bias); the reference contracts the concatenated row of 256 entries against the whole weight row. The two agree on the
  extended reals by splitting a sum over 256 indices into its two halves and commuting each product: no distributivity and
  no cancellation, so no finiteness of the inputs is needed.
-/
import Idealize.ShloMosaic.PureOps.Ideal
import Idealize.ShloMosaic.Lib.ValueIdx

noncomputable section

open scoped BigOperators
open Idealize.ShloMosaic Idealize.ShloMosaic.ValueIdx

namespace Cert.EdgeScore

/-- The score of edge `e`: the first weight half against the first endpoint's features, the second half against the second
    endpoint's, and the bias. -/
def score (f1 f2 : (⟨2, ![524288, 128]⟩ : Shape).Idx → EReal) (W : (⟨2, ![1, 256]⟩ : Shape).Idx → EReal)
    (b : (⟨1, ![1]⟩ : Shape).Idx → EReal) (e : Fin 524288) : EReal :=
  (∑ k : Fin 128, W (ix2 (0 : Fin 1) (⟨k.val, by omega⟩ : Fin 256)) * f1 (ix2 e k)
    + ∑ k : Fin 128, W (ix2 (0 : Fin 1) (⟨128 + k.val, by omega⟩ : Fin 256)) * f2 (ix2 e k))
  + b (ix1 (0 : Fin 1))

/-- The same score written over the two weight halves as separate rows and the bias as a 1 × 1 array: the form the
    kernel's region computes it in. -/
def blockScore (f1 f2 : (⟨2, ![524288, 128]⟩ : Shape).Idx → EReal) (w1 w2 : (⟨2, ![1, 128]⟩ : Shape).Idx → EReal)
    (b2 : (⟨2, ![1, 1]⟩ : Shape).Idx → EReal) (e : Fin 524288) : EReal :=
  (∑ k : Fin 128, w1 (ix2 (0 : Fin 1) k) * f1 (ix2 e k) + ∑ k : Fin 128, w2 (ix2 (0 : Fin 1) k) * f2 (ix2 e k))
  + b2 (ix2 (0 : Fin 1) (0 : Fin 1))

/-- With the halves read out of the whole weight row and the bias out of its one-entry array, it is `score`. -/
theorem blockScore_eq_score (f1 f2 : (⟨2, ![524288, 128]⟩ : Shape).Idx → EReal) (w1 w2 : (⟨2, ![1, 128]⟩ : Shape).Idx → EReal)
    (b2 : (⟨2, ![1, 1]⟩ : Shape).Idx → EReal) (W : (⟨2, ![1, 256]⟩ : Shape).Idx → EReal) (b : (⟨1, ![1]⟩ : Shape).Idx → EReal)
    (h1 : ∀ k : Fin 128, w1 (ix2 (0 : Fin 1) k) = W (ix2 (0 : Fin 1) (⟨k.val, by omega⟩ : Fin 256)))
    (h2 : ∀ k : Fin 128, w2 (ix2 (0 : Fin 1) k) = W (ix2 (0 : Fin 1) (⟨128 + k.val, by omega⟩ : Fin 256)))
    (hb : b2 (ix2 (0 : Fin 1) (0 : Fin 1)) = b (ix1 (0 : Fin 1))) (e : Fin 524288) :
    blockScore f1 f2 w1 w2 b2 e = score f1 f2 W b e := by
  unfold blockScore score
  rw [hb]
  simp only [h1, h2]

/-- A sum over 256 indices is the sum over the first 128 plus the sum over the last 128. -/
theorem sum_halves (g : Fin 256 → EReal) :
    ∑ k : Fin 256, g k = ∑ k : Fin 128, g ⟨k.val, by omega⟩ + ∑ k : Fin 128, g ⟨128 + k.val, by omega⟩ :=
  Fin.sum_univ_add (a := 128) (b := 128) (fun i => g i)

/-- The concatenated row `[a | c]` of 256 entries contracted against a weight row is the two half contractions, with each
    product commuted to put the weight first. -/
theorem contract_concat (a c : Fin 128 → EReal) (w : Fin 256 → EReal) :
    ∑ k : Fin 256, (if h : k.val < 128 then a ⟨k.val, h⟩ else c ⟨k.val - 128, by omega⟩) * w k
      = ∑ k : Fin 128, w ⟨k.val, by omega⟩ * a k + ∑ k : Fin 128, w ⟨128 + k.val, by omega⟩ * c k := by
  rw [sum_halves]
  congr 1
  · refine Finset.sum_congr rfl fun k _ => ?_
    have hk : k.val < 128 := k.isLt
    rw [dif_pos (show (⟨k.val, by omega⟩ : Fin 256).val < 128 from hk), mul_comm]
  · refine Finset.sum_congr rfl fun k _ => ?_
    have hk : ¬ (⟨128 + k.val, by omega⟩ : Fin 256).val < 128 := by simp
    rw [dif_neg hk, mul_comm]
    congr 2
    exact Fin.ext (by simp)

end Cert.EdgeScore

end
-- ==== Proof.KernelArray.lean ====
/-
  THE REGION'S RESULT ARRAY: every edge's score.

  The grid has 64 points; point `t` holds edges `8192·t … 8192·t + 8191`: rows `8192·t + e` of the two gathered feature
  arrays (524288 × 128), the two weight halves and the bias whole, and it writes columns `8192·t + e` of the result row
  (1 × 524288). What the body stores at `(0, e)` of its block is the score of edge `8192·t + e` (the body's value read at an
  edge, with each block read where it sits in its array), so what point `t` writes back is block `t` of the ONE array
  `regionOut`, the score of every edge; the 64 blocks tile the row, so the result array ends holding `regionOut`.
-/
import proofs.«119529_j29703993819993_1_alg».proof.Proof.Gen.KernelIdeal.Frame
import proofs.«119529_j29703993819993_1_alg».proof.Proof.KernelBody
import proofs.«119529_j29703993819993_1_alg».proof.Proof.EdgeScore
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.EdgeScore

variable (m : (ℓ : Loc nD τ sig) → Buf (Elt Ideal) ℓ)

theorem hz : (![0, 0] : Fin 2 → Nat) = fun _ => 0 := funext fun a => by fin_cases a <;> rfl

/-! ## The arrays the region finds, and the blocks the body is called with, at their literal types -/

/-- The first endpoint's gathered features, as the region finds them. -/
abbrev feat1 (c : Dev nD) : Vec Ideal S524288x128 .f32 := V m c main_v10
/-- The second endpoint's. -/
abbrev feat2 (c : Dev nD) : Vec Ideal S524288x128 .f32 := V m c main_v17
/-- The first weight half. -/
abbrev wlo (c : Dev nD) : Vec Ideal S1x128 .f32 := V m c main_v18
/-- The second weight half. -/
abbrev whi (c : Dev nD) : Vec Ideal S1x128 .f32 := V m c main_v19
/-- The bias as a 1 × 1 array. -/
abbrev bias (c : Dev nD) : Vec Ideal S1x1 .f32 := V m c main_v20

abbrev f1blk (c : Dev nD) (t : Fin cfg0.N) : Vec Ideal S8192x128 .f32 := iblk m c 0 t
abbrev f2blk (c : Dev nD) (t : Fin cfg0.N) : Vec Ideal S8192x128 .f32 := iblk m c 1 t
abbrev wloblk (c : Dev nD) (t : Fin cfg0.N) : Vec Ideal S1x128 .f32 := iblk m c 2 t
abbrev whiblk (c : Dev nD) (t : Fin cfg0.N) : Vec Ideal S1x128 .f32 := iblk m c 3 t
abbrev biasblk (c : Dev nD) (t : Fin cfg0.N) : Vec Ideal S1x1 .f32 := iblk m c 4 t

/-- THE RESULT: entry `(0, e)` is the score of edge `e`. -/
def regionOut (c : Dev nD) : Vec Ideal S1x524288 .f32 := fun i =>
  blockScore (feat1 m c) (feat2 m c) (wlo m c) (whi m c) (bias m c) (⟨(i 1).val, idx2_lt1 i⟩ : Fin 524288)

/-! ## Where each window's block sits, decided over the grid -/

/-- Point `t` takes row block `t` of the two feature arrays, the small arrays whole, and column block `t` of the result. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-! ## Each block read where it sits in its array -/

/-- Row `e` of the first feature block at point `t` is row `8192·t + e` of the first feature array. -/
theorem f1blk_apply (c : Dev nD) (t : Fin cfg0.N) (e : Fin 8192) (k : Fin 128) (r : Fin 524288)
    (hr : r.val = 8192 * t.val + e.val) : f1blk m c t (ix2 e k) = feat1 m c (ix2 r k) := by
  obtain ⟨h0, h1, -⟩ := idx_facts t
  show iblk m c 0 t (ix2 e k) = V m c main_v10 (ix2 r k)
  unfold iblk
  rw [View.read_apply]
  show V m c main_v10 _ = V m c main_v10 _
  congr 1
  funext a
  apply Fin.ext
  match a with
  | ⟨0, _⟩ => show win0_0.index t (0 : Fin 2) * 8192 + 1 * e.val = r.val; rw [h0, hr]; omega
  | ⟨1, _⟩ => show win0_0.index t (1 : Fin 2) * 128 + 1 * k.val = k.val; rw [h1]; omega

/-- Row `e` of the second feature block at point `t` is row `8192·t + e` of the second feature array. -/
theorem f2blk_apply (c : Dev nD) (t : Fin cfg0.N) (e : Fin 8192) (k : Fin 128) (r : Fin 524288)
    (hr : r.val = 8192 * t.val + e.val) : f2blk m c t (ix2 e k) = feat2 m c (ix2 r k) := by
  obtain ⟨-, -, h0, h1, -⟩ := idx_facts t
  show iblk m c 1 t (ix2 e k) = V m c main_v17 (ix2 r k)
  unfold iblk
  rw [View.read_apply]
  show V m c main_v17 _ = V m c main_v17 _
  congr 1
  funext a
  apply Fin.ext
  match a with
  | ⟨0, _⟩ => show win0_1.index t (0 : Fin 2) * 8192 + 1 * e.val = r.val; rw [h0, hr]; omega
  | ⟨1, _⟩ => show win0_1.index t (1 : Fin 2) * 128 + 1 * k.val = k.val; rw [h1]; omega

/-- The first weight half's block is the whole half at every point. -/
theorem wloblk_apply (c : Dev nD) (t : Fin cfg0.N) (k : Fin 128) :
    wloblk m c t (ix2 (0 : Fin 1) k) = wlo m c (ix2 (0 : Fin 1) k) := by
  obtain ⟨-, -, -, -, h0, h1, -⟩ := idx_facts t
  show iblk m c 2 t (ix2 (0 : Fin 1) k) = V m c main_v18 (ix2 (0 : Fin 1) k)
  unfold iblk
  rw [View.read_apply]
  show V m c main_v18 _ = V m c main_v18 _
  congr 1
  funext a
  apply Fin.ext
  match a with
  | ⟨0, _⟩ => show win0_2.index t (0 : Fin 2) * 1 + 1 * 0 = 0; rw [h0]
  | ⟨1, _⟩ => show win0_2.index t (1 : Fin 2) * 128 + 1 * k.val = k.val; rw [h1]; omega

/-- The second weight half's block is the whole half at every point. -/
theorem whiblk_apply (c : Dev nD) (t : Fin cfg0.N) (k : Fin 128) :
    whiblk m c t (ix2 (0 : Fin 1) k) = whi m c (ix2 (0 : Fin 1) k) := by
  obtain ⟨-, -, -, -, -, -, h0, h1, -⟩ := idx_facts t
  show iblk m c 3 t (ix2 (0 : Fin 1) k) = V m c main_v19 (ix2 (0 : Fin 1) k)
  unfold iblk
  rw [View.read_apply]
  show V m c main_v19 _ = V m c main_v19 _
  congr 1
  funext a
  apply Fin.ext
  match a with
  | ⟨0, _⟩ => show win0_3.index t (0 : Fin 2) * 1 + 1 * 0 = 0; rw [h0]
  | ⟨1, _⟩ => show win0_3.index t (1 : Fin 2) * 128 + 1 * k.val = k.val; rw [h1]; omega

/-- The bias block is the bias at every point. -/
theorem biasblk_apply (c : Dev nD) (t : Fin cfg0.N) :
    biasblk m c t (ix2 (0 : Fin 1) (0 : Fin 1)) = bias m c (ix2 (0 : Fin 1) (0 : Fin 1)) := by
  obtain ⟨-, -, -, -, -, -, -, -, h0, h1, -⟩ := idx_facts t
  show iblk m c 4 t (ix2 (0 : Fin 1) (0 : Fin 1)) = V m c main_v20 (ix2 (0 : Fin 1) (0 : Fin 1))
  unfold iblk
  rw [View.read_apply]
  show V m c main_v20 _ = V m c main_v20 _
  congr 1
  funext a
  apply Fin.ext
  match a with
  | ⟨0, _⟩ => show win0_4.index t (0 : Fin 2) * 1 + 1 * 0 = 0; rw [h0]
  | ⟨1, _⟩ => show win0_4.index t (1 : Fin 2) * 1 + 1 * 0 = 0; rw [h1]

/-! ## What a point writes back -/

/-- The body's stored row at any index of its block: the index's row is the only one, its column the edge. -/
theorem pay_at (x0 x1 : Vec Ideal S8192x128 .f32) (x2 x3 : Vec Ideal S1x128 .f32) (x4 : Vec Ideal S1x1 .f32) (y : S1x8192.Idx) :
    k0_pay1 (F := Ideal) x0 x1 x2 x3 x4 y
      = (∑ k : Fin 128, x2 (ix2 (0 : Fin 1) k) * x0 (ix2 (⟨(y 1).val, idx2_lt1 y⟩ : Fin 8192) k)
          + ∑ k : Fin 128, x3 (ix2 (0 : Fin 1) k) * x1 (ix2 (⟨(y 1).val, idx2_lt1 y⟩ : Fin 8192) k))
        + x4 (ix2 (0 : Fin 1) (0 : Fin 1)) := by
  have hy : y = ix2 (0 : Fin 1) (⟨(y 1).val, idx2_lt1 y⟩ : Fin 8192) := by
    funext a
    match a with
    | ⟨0, _⟩ => exact Fin.ext (by have h := idx2_lt0 y; show (y 0).val = 0; omega)
    | ⟨1, _⟩ => rfl
  exact (congrArg (k0_pay1 (F := Ideal) x0 x1 x2 x3 x4) hy).trans (Body.pay_apply x0 x1 x2 x3 x4 _)

/-- WHAT POINT `t` WRITES BACK is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero hz]
  simp only [View.ld_unit_zero (S := S8192x128) hz, View.ld_unit_zero (S := S1x128) hz, View.ld_unit_zero (S := S1x1) hz]
  obtain ⟨-, -, -, -, -, -, -, -, -, -, h50, h51⟩ := idx_facts t
  funext j
  rw [View.read_apply]
  refine (pay_at (f1blk m c t) (f2blk m c t) (wloblk m c t) (whiblk m c t) (biasblk m c t) ((cfg0.win 5).xinj (grid0.coords t) j)).trans ?_
  unfold regionOut blockScore
  refine congrArg₂ (· + ·) (congrArg₂ (· + ·) (Finset.sum_congr rfl fun k _ => ?_) (Finset.sum_congr rfl fun k _ => ?_)) ?_
  · rw [wloblk_apply m c t k]
    exact congrArg (wlo m c (ix2 (0 : Fin 1) k) * ·) (f1blk_apply m c t _ k _ (by
      show win0_5.index t (1 : Fin 2) * 8192 + 1 * (j 1).val = 8192 * t.val + (j 1).val; rw [h51]; omega))
  · rw [whiblk_apply m c t k]
    exact congrArg (whi m c (ix2 (0 : Fin 1) k) * ·) (f2blk_apply m c t _ k _ (by
      show win0_5.index t (1 : Fin 2) * 8192 + 1 * (j 1).val = 8192 * t.val + (j 1).val; rw [h51]; omega))
  · exact biasblk_apply m c t

/-! ## The blocks tile the row -/

/-- An index of the result row is in point `t`'s block iff each coordinate is in the block's range on its axis. -/
theorem mem_blk (t : Fin cfg0.N) (i : S1x524288.Idx) :
    i ∈ ((cfg0.win 5).blk t).view.set ↔ ∀ a : Fin 2, win0_5.index t a * S1x8192.size a ≤ (i a).val ∧ (i a).val < win0_5.index t a * S1x8192.size a + S1x8192.size a := by
  show i ∈ ((View.whole main_v21).slice (win0_5.rect t)).set ↔ _
  rw [View.set_slice_whole, Rect.mem_set_unit]
  exact Iff.rfl

/-- Every column of the row is in some point's block: column `e` in point `e / 8192`'s. -/
theorem cover (i : S1x524288.Idx) : ∃ t : Fin cfg0.N, (cfg0.win 5).flush t = true ∧ i ∈ ((cfg0.win 5).blk t).view.set := by
  have hi0 : (i 0).val < 1 := idx2_lt0 i
  have hi1 : (i 1).val < 524288 := idx2_lt1 i
  have hN : cfg0.N = 64 := N_0
  let t : Fin cfg0.N := ⟨(i 1).val / 8192, by rw [hN]; omega⟩
  obtain ⟨-, -, -, -, -, -, -, -, -, -, h50, h51⟩ := idx_facts t
  have ht : t.val = (i 1).val / 8192 := rfl
  refine ⟨t, flush0_5 t, ?_⟩
  rw [mem_blk]
  intro a
  match a with
  | ⟨0, _⟩ => show win0_5.index t (0 : Fin 2) * 1 ≤ (i 0).val ∧ (i 0).val < win0_5.index t (0 : Fin 2) * 1 + 1; rw [h50]; omega
  | ⟨1, _⟩ => show win0_5.index t (1 : Fin 2) * 8192 ≤ (i 1).val ∧ (i 1).val < win0_5.index t (1 : Fin 2) * 8192 + 8192; rw [h51, ht]; omega

/-- THE RESULT ARRAY after the region: the score of every edge. -/
theorem final (c : Dev nD) : (dats m 0 c).arrAt 5 cfg0.N = regionOut m c :=
  (dats m 0 c).arrAt_eq_of_cover 5 (regionOut m c) (fun t _ => flushed_eq m c t) (cover)

end Cert.KernelIdeal.Region

end
-- ==== Proof.KernelGlue.lean ====
/-
  THE KERNEL PROGRAM AROUND ITS REGION: what the region is handed, and what is made of its result.

  Before the region the program takes the two rows of the edge list (`idxRow0`, `idxRow1`), wraps negative entries NumPy's
  way (`wrapNeg`: a negative word has the table's 16384 rows added), gathers the endpoint feature rows (`gatherRows`), cuts
  the weight row into its halves and reshapes the bias to 1 × 1. After the region it flattens the row of scores and adds
  each edge's score into entry (first endpoint, second endpoint) of a zero 16384 × 16384 matrix (`scatterEdges`). The
  gather and the scatter are never opened: the reference applies the same two operations to the same index words, so
  they are carried as named functions and only the scores between them are compared.

  `result` is the whole program's value as one function of its four arguments, and `run` the generated frame run
  re-posted at it.
-/
import proofs.«119529_j29703993819993_1_alg».proof.Proof.Gen.KernelIdeal.Frame
import proofs.«119529_j29703993819993_1_alg».proof.Proof.KernelArray
import proofs.«119529_j29703993819993_1_alg».proof.Proof.EdgeScore
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Glue

open Cert.KernelIdeal Cert.KernelIdeal.Gen Cert.EdgeScore
open Idealize.ShloMosaic Idealize.ShloMosaic.TcCoe Idealize.SL.Sem Idealize.ShloMosaic.StableHlo Idealize.ShloMosaic.ValueIdx

/-! ## The host operations both programs share, as named functions -/

/-- The first endpoints: row 0 of the edge list as a vector of index words. -/
def idxRow0 (x1 : (⟨S2x524288, .i32⟩ : BufTy).Contents (Elt Ideal)) : (⟨S524288, .i32⟩ : BufTy).Contents (Elt Ideal) :=
  shapeCast _ (extractStridedSlice S1x524288 ![0, 0] x1 slices_S2x524288_S1x524288_0_0) shapeCasts_S1x524288_S524288
/-- The second endpoints: row 1. -/
def idxRow1 (x1 : (⟨S2x524288, .i32⟩ : BufTy).Contents (Elt Ideal)) : (⟨S524288, .i32⟩ : BufTy).Contents (Elt Ideal) :=
  shapeCast _ (extractStridedSlice S1x524288 ![1, 0] x1 slices_S2x524288_S1x524288_1_0) shapeCasts_S1x524288_S524288
/-- A negative index word counts from the end: the table's 16384 rows are added to it. -/
def wrapNeg (r : (⟨S524288, .i32⟩ : BufTy).Contents (Elt Ideal)) : (⟨S524288, .i32⟩ : BufTy).Contents (Elt Ideal) :=
  select (cmpi .slt r (broadcastInDim S524288 ![] bcast_S_S524288 (constantI S_ 32 0#32))) (addi r (broadcastInDim S524288 ![] bcast_S_S524288 (constantI S_ 32 16384#32))) r
/-- The feature rows of the table at the (wrapped) index words. -/
def gatherRows (x0 : (⟨S16384x128, .f32⟩ : BufTy).Contents (Elt Ideal)) (r : (⟨S524288, .i32⟩ : BufTy).Contents (Elt Ideal)) : (⟨S524288x128, .f32⟩ : BufTy).Contents (Elt Ideal) :=
  Host.gather gather_S16384x128_S524288x1_S524288x128_1_0_n_n_0_1_1128 x0 (broadcastInDim S524288x1 ![0] bcast_S524288_S524288x1_0 (wrapNeg r))
/-- Each edge's value `u e` added into entry (first endpoint, second endpoint) of the zero matrix. -/
def scatterEdges (r0 r1 : (⟨S524288, .i32⟩ : BufTy).Contents (Elt Ideal)) (u : (⟨S524288, .f32⟩ : BufTy).Contents (Elt Ideal)) : (⟨S16384x16384, .f32⟩ : BufTy).Contents (Elt Ideal) :=
  Host.scatterAdd scatter_S16384x16384_S524288x2_S524288_n_01_01_1 (broadcastInDim S16384x16384 ![] bcast_S_S16384x16384 (constant (F := Ideal) S_ .f32 0x00000000#32))
    (concatenate S524288x2 1 [⟨S524288x1, broadcastInDim S524288x1 ![0] bcast_S524288_S524288x1_0 (wrapNeg r0)⟩, ⟨S524288x1, broadcastInDim S524288x1 ![0] bcast_S524288_S524288x1_0 (wrapNeg r1)⟩] concatenates_S524288x1_S524288x1_S524288x2_d1) u

/-- Every edge's score, from the program's arguments. -/
def edgeScores (x0 : (⟨S16384x128, .f32⟩ : BufTy).Contents (Elt Ideal)) (x1 : (⟨S2x524288, .i32⟩ : BufTy).Contents (Elt Ideal))
    (x2 : (⟨S1x256, .f32⟩ : BufTy).Contents (Elt Ideal)) (x3 : (⟨S1, .f32⟩ : BufTy).Contents (Elt Ideal)) : (⟨S524288, .f32⟩ : BufTy).Contents (Elt Ideal) :=
  fun i => score (gatherRows x0 (idxRow0 x1)) (gatherRows x0 (idxRow1 x1)) x2 x3 (⟨(i 0).val, (i 0).isLt⟩ : Fin 524288)

/-- THE PROGRAM'S VALUE: the edges' scores scattered into the matrix. -/
def result (x0 : (⟨S16384x128, .f32⟩ : BufTy).Contents (Elt Ideal)) (x1 : (⟨S2x524288, .i32⟩ : BufTy).Contents (Elt Ideal))
    (x2 : (⟨S1x256, .f32⟩ : BufTy).Contents (Elt Ideal)) (x3 : (⟨S1, .f32⟩ : BufTy).Contents (Elt Ideal)) : (⟨S16384x16384, .f32⟩ : BufTy).Contents (Elt Ideal) :=
  scatterEdges (idxRow0 x1) (idxRow1 x1) (edgeScores x0 x1 x2 x3)

/-! ## The host operations before the region, read back over any buffer contents -/

theorem prefix_v1 (M : Valuation τ sig (Elt Ideal)) :
    StableHlo.after hostOps0 M (Proc.devRef .tc main_v1) = idxRow0 (M (Proc.devRef .tc main_arg1)) := by
  after_results <;> rfl
theorem prefix_v3 (M : Valuation τ sig (Elt Ideal)) :
    StableHlo.after hostOps0 M (Proc.devRef .tc main_v3) = idxRow1 (M (Proc.devRef .tc main_arg1)) := by
  after_results <;> rfl
theorem prefix_v10 (M : Valuation τ sig (Elt Ideal)) :
    StableHlo.after hostOps0 M (Proc.devRef .tc main_v10) = gatherRows (M (Proc.devRef .tc main_arg0)) (idxRow0 (M (Proc.devRef .tc main_arg1))) := by
  after_results <;> rfl
theorem prefix_v17 (M : Valuation τ sig (Elt Ideal)) :
    StableHlo.after hostOps0 M (Proc.devRef .tc main_v17) = gatherRows (M (Proc.devRef .tc main_arg0)) (idxRow1 (M (Proc.devRef .tc main_arg1))) := by
  after_results <;> rfl
theorem prefix_v18 (M : Valuation τ sig (Elt Ideal)) :
    StableHlo.after hostOps0 M (Proc.devRef .tc main_v18) = extractStridedSlice S1x128 ![0, 0] (M (Proc.devRef .tc main_arg2)) slices_S1x256_S1x128_0_0 := by
  after_results <;> rfl
theorem prefix_v19 (M : Valuation τ sig (Elt Ideal)) :
    StableHlo.after hostOps0 M (Proc.devRef .tc main_v19) = extractStridedSlice S1x128 ![0, 128] (M (Proc.devRef .tc main_arg2)) slices_S1x256_S1x128_0_128 := by
  after_results <;> rfl
theorem prefix_v20 (M : Valuation τ sig (Elt Ideal)) :
    StableHlo.after hostOps0 M (Proc.devRef .tc main_v20) = shapeCast S1x1 (M (Proc.devRef .tc main_arg3)) shapeCasts_S1_S1x1 := by
  after_results <;> rfl

/-! ## The host operations after the region, read back over any buffer contents -/

set_option maxHeartbeats 2000000 in
/-- The last lines flatten the region's row and scatter it by the two index rows computed before the region. -/
theorem tail_of (W : Valuation τ sig (Elt Ideal)) :
    StableHlo.after hostOps1 W (Proc.devRef .tc main_v37)
      = scatterEdges (W (Proc.devRef .tc main_v1)) (W (Proc.devRef .tc main_v3)) (shapeCast _ (W (Proc.devRef .tc main_v21)) shapeCasts_S1x524288_S524288) := by
  after_results_simp
  rfl

/-- The same with the three buffers the tail reads named. -/
theorem tail_at (W : Valuation τ sig (Elt Ideal)) (r0 r1 : (⟨S524288, .i32⟩ : BufTy).Contents (Elt Ideal)) (u : (⟨S1x524288, .f32⟩ : BufTy).Contents (Elt Ideal))
    (h1 : W (Proc.devRef .tc main_v1) = r0) (h3 : W (Proc.devRef .tc main_v3) = r1) (h21 : W (Proc.devRef .tc main_v21) = u) :
    StableHlo.after hostOps1 W (Proc.devRef .tc main_v37) = scatterEdges r0 r1 (shapeCast _ u shapeCasts_S1x524288_S524288) := by
  subst h1 h3 h21
  exact tail_of W

/-! ## At the program's launch memory -/

variable (m : (ℓ : Loc nD τ sig) → Buf (Elt Ideal) ℓ) (ρ : Dev nD → PrngReg)

theorem feat1_eq (c : Dev nD) : Region.feat1 m c = gatherRows (m ((c.tc : Thread nD τ).loc main_arg0)) (idxRow0 (m ((c.tc : Thread nD τ).loc main_arg1))) := by
  show StableHlo.after hostOps0 (fun b => m (c, b)) (Proc.devRef .tc main_v10) = _
  exact prefix_v10 _
theorem feat2_eq (c : Dev nD) : Region.feat2 m c = gatherRows (m ((c.tc : Thread nD τ).loc main_arg0)) (idxRow1 (m ((c.tc : Thread nD τ).loc main_arg1))) := by
  show StableHlo.after hostOps0 (fun b => m (c, b)) (Proc.devRef .tc main_v17) = _
  exact prefix_v17 _
theorem wlo_eq (c : Dev nD) : Region.wlo m c = extractStridedSlice S1x128 ![0, 0] (m ((c.tc : Thread nD τ).loc main_arg2)) slices_S1x256_S1x128_0_0 := by
  show StableHlo.after hostOps0 (fun b => m (c, b)) (Proc.devRef .tc main_v18) = _
  exact prefix_v18 _
theorem whi_eq (c : Dev nD) : Region.whi m c = extractStridedSlice S1x128 ![0, 128] (m ((c.tc : Thread nD τ).loc main_arg2)) slices_S1x256_S1x128_0_128 := by
  show StableHlo.after hostOps0 (fun b => m (c, b)) (Proc.devRef .tc main_v19) = _
  exact prefix_v19 _
theorem bias_eq (c : Dev nD) : Region.bias m c = shapeCast S1x1 (m ((c.tc : Thread nD τ).loc main_arg3)) shapeCasts_S1_S1x1 := by
  show StableHlo.after hostOps0 (fun b => m (c, b)) (Proc.devRef .tc main_v20) = _
  exact prefix_v20 _
theorem row0_eq (c : Dev nD) : V0 m c (Proc.devRef .tc main_v1) = idxRow0 (m ((c.tc : Thread nD τ).loc main_arg1)) := by
  show StableHlo.after hostOps0 (fun b => m (c, b)) (Proc.devRef .tc main_v1) = _
  exact prefix_v1 _
theorem row1_eq (c : Dev nD) : V0 m c (Proc.devRef .tc main_v3) = idxRow1 (m ((c.tc : Thread nD τ).loc main_arg1)) := by
  show StableHlo.after hostOps0 (fun b => m (c, b)) (Proc.devRef .tc main_v3) = _
  exact prefix_v3 _

/-- The first weight half at column `k` is the weight row at column `k`. -/
theorem wlo_apply (c : Dev nD) (k : Fin 128) :
    Region.wlo m c (ix2 (0 : Fin 1) k) = (m ((c.tc : Thread nD τ).loc main_arg2) : Vec Ideal S1x256 .f32) (ix2 (0 : Fin 1) (⟨k.val, by omega⟩ : Fin 256)) := by
  rw [wlo_eq]
  exact extractStridedSlice_apply ![0, 0] _ slices_S1x256_S1x128_0_0 (ix2 (0 : Fin 1) k) (ix2 (0 : Fin 1) (⟨k.val, by omega⟩ : Fin 256)) (fun a => match a with
    | ⟨0, _⟩ => by show (0 : Nat) = 0 + 0; rfl
    | ⟨1, _⟩ => by show k.val = 0 + k.val; omega)
/-- The second weight half at column `k` is the weight row at column `128 + k`. -/
theorem whi_apply (c : Dev nD) (k : Fin 128) :
    Region.whi m c (ix2 (0 : Fin 1) k) = (m ((c.tc : Thread nD τ).loc main_arg2) : Vec Ideal S1x256 .f32) (ix2 (0 : Fin 1) (⟨128 + k.val, by omega⟩ : Fin 256)) := by
  rw [whi_eq]
  exact extractStridedSlice_apply ![0, 128] _ slices_S1x256_S1x128_0_128 (ix2 (0 : Fin 1) k) (ix2 (0 : Fin 1) (⟨128 + k.val, by omega⟩ : Fin 256)) (fun a => match a with
    | ⟨0, _⟩ => by show (0 : Nat) = 0 + 0; rfl
    | ⟨1, _⟩ => by show 128 + k.val = 128 + k.val; rfl)
/-- The 1 × 1 bias holds the bias. -/
theorem bias_apply (c : Dev nD) :
    Region.bias m c (ix2 (0 : Fin 1) (0 : Fin 1)) = (m ((c.tc : Thread nD τ).loc main_arg3) : Vec Ideal S1 .f32) (ix1 (0 : Fin 1)) := by
  rw [bias_eq]
  exact shapeCast_apply _ shapeCasts_S1_S1x1 (ix2 (0 : Fin 1) (0 : Fin 1)) (ix1 (0 : Fin 1))
    (by rewrite [Shape.rowMajor_val_two, Shape.rowMajor_val_one]; rfl)

/-- The region's result at `(0, e)` is the score of edge `e` from the program's arguments. -/
theorem regionOut_apply (c : Dev nD) (i : S1x524288.Idx) :
    Region.regionOut m c i = score (gatherRows (m ((c.tc : Thread nD τ).loc main_arg0)) (idxRow0 (m ((c.tc : Thread nD τ).loc main_arg1))))
      (gatherRows (m ((c.tc : Thread nD τ).loc main_arg0)) (idxRow1 (m ((c.tc : Thread nD τ).loc main_arg1))))
      (m ((c.tc : Thread nD τ).loc main_arg2)) (m ((c.tc : Thread nD τ).loc main_arg3)) (⟨(i 1).val, idx2_lt1 i⟩ : Fin 524288) := by
  unfold Region.regionOut
  rw [← feat1_eq m c, ← feat2_eq m c]
  exact blockScore_eq_score _ _ _ _ _ _ _ (wlo_apply m c) (whi_apply m c) (bias_apply m c) _

/-- The flattened row of scores is `edgeScores`. -/
theorem flat_eq (c : Dev nD) :
    shapeCast S524288 (Region.regionOut m c) shapeCasts_S1x524288_S524288
      = edgeScores (m ((c.tc : Thread nD τ).loc main_arg0)) (m ((c.tc : Thread nD τ).loc main_arg1)) (m ((c.tc : Thread nD τ).loc main_arg2)) (m ((c.tc : Thread nD τ).loc main_arg3)) := by
  funext i
  obtain ⟨e, rfl⟩ : ∃ e : Fin 524288, i = ix1 e := ⟨i 0, eq_ix1 i⟩
  rw [shapeCast_apply (Region.regionOut m c) shapeCasts_S1x524288_S524288 (ix1 e) (ix2 (0 : Fin 1) e)
    (by rewrite [Shape.rowMajor_val_two, Shape.rowMajor_val_one]; show 0 * 524288 + e.val = e.val; omega)]
  rw [regionOut_apply]
  rfl

/-- THE PROGRAM'S RESULT BUFFER after the tail. -/
theorem result_eq (c : Dev nD) :
    Pipeline.afterTail₀ cfgs (dats m) 0 (V0 m) [hostOps1] c main_v37
      = result (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v37) = _
  refine (tail_at _ _ _ _
    ((Pipeline.withArrays_of_ne _ c (V0 m c) _ main_v1 (by exact (by decide : ∀ w, Pipeline.arrRef spec0 w ≠ main_v1))).trans (row0_eq m c))
    ((Pipeline.withArrays_of_ne _ c (V0 m c) _ main_v3 (by exact (by decide : ∀ w, Pipeline.arrRef spec0 w ≠ main_v3))).trans (row1_eq m c))
    ((Pipeline.withArrays_arr spec0 launch0.win.arr_inj c _ _ 5).trans (Region.final m c))).trans ?_
  unfold result
  rw [flat_eq]

/-- THE RUN, READ: the result buffer at `result` of the arguments, the arguments unchanged. -/
theorem run : θ_run defs (onTc (τ := τ) (main (F := Ideal))) ⟨m, fun _ => 0, ρ⟩ (fun r => ∀ c : Dev nD,
      r.2.mem ((c.tc : Thread nD τ).loc main_v37) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v37 (Pipeline.mem_restRefs_of main_v37 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Glue

end
-- ==== Proof.RefValue.lean ====
/-
  THE REFERENCE'S EDGE SCORES, read at an edge.

  The reference gathers the two endpoint feature arrays `f1`, `f2` (524288 × 128 each), lays them side by side into one array
  of 256 columns, contracts it against the transposed weight row, adds the bias and flattens. Read at edge `e`:

      temp e = ∑ k < 256, [f1 | f2] (e, k) · W (0, k)  +  b 0,

  where column `k` of the joined array is `f1 (e, k)` for `k < 128` and `f2 (e, k − 128)` past it. Splitting the sum at 128
  and commuting each product makes it the score of edge `e`.
-/
import proofs.«119529_j29703993819993_1_alg».proof.Proof.Gen.ReferenceIdeal.Read
import proofs.«119529_j29703993819993_1_alg».proof.Proof.EdgeScore
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Cert.EdgeScore
open Idealize.ShloMosaic Idealize.ShloMosaic.ValueIdx

/-- The two feature arrays joined along the columns, read at `(e, k)`: the first array's column `k` below 128, the
    second's column `k − 128` from there on. -/
theorem joined_apply (a b : (⟨S524288x128, .f32⟩ : BufTy).Contents (Elt Ideal)) (e : Fin 524288) (k : Fin 256) :
    concatenate S524288x256 1 [⟨S524288x128, a⟩, ⟨S524288x128, b⟩] concatenates_S524288x128_S524288x128_S524288x256_d1 (ix2 e k)
      = if h : k.val < 128 then a (ix2 e (⟨k.val, h⟩ : Fin 128)) else b (ix2 e (⟨k.val - 128, by omega⟩ : Fin 128)) := by
  split
  · rename_i h
    exact concatenate_pair_apply_left (1 : Fin S524288x256.rank) a b concatenates_S524288x128_S524288x128_S524288x256_d1 (ix2 e k) rfl
      (ix2 e (⟨k.val, h⟩ : Fin 128)) (fun d => match d with
        | ⟨0, _⟩ => rfl
        | ⟨1, _⟩ => rfl)
  · rename_i h
    exact concatenate_pair_apply_right (1 : Fin S524288x256.rank) a b concatenates_S524288x128_S524288x128_S524288x256_d1 (ix2 e k) rfl rfl
      (ix2 e (⟨k.val - 128, by omega⟩ : Fin 128)) (fun d hd => match d, hd with
        | ⟨0, _⟩, _ => rfl
        | ⟨1, _⟩, hd => absurd rfl hd)
      (by show (k.val - 128) + 128 = k.val; omega)

/-- THE REFERENCE'S SCORE of edge `e` is `score` of its two gathered feature arrays, the weight row and the bias. -/
theorem temp_apply (x0 : (⟨S16384x128, .f32⟩ : BufTy).Contents (Elt Ideal)) (x1 : (⟨S2x524288, .i32⟩ : BufTy).Contents (Elt Ideal))
    (x2 : (⟨S1x256, .f32⟩ : BufTy).Contents (Elt Ideal)) (x3 : (⟨S1, .f32⟩ : BufTy).Contents (Elt Ideal)) (e : Fin 524288) :
    val_main_v24 (F := Ideal) x0 x1 x2 x3 (ix1 e)
      = score (val_main_v8 (F := Ideal) x0 x1) (val_main_v17 (F := Ideal) x0 x1) x2 x3 e := by
  rw [val_main_v24_apply, val_main_v23_apply, val_main_v20_apply, val_main_v22_apply, val_main_v21_apply]
  have el : ∀ k : Fin 256, lidx_main_v20 (idx_main_v24 (ix1 e)) k = ix2 e k := fun k => funext fun a => Fin.ext (by
    match a with
    | ⟨0, _⟩ => show e.val / 1 = e.val; omega
    | ⟨1, _⟩ => rfl)
  have er : ∀ k : Fin 256, idx_main_v19 (ridx_main_v20 (idx_main_v24 (ix1 e)) k) = ix2 (0 : Fin 1) k := fun k => funext fun a => Fin.ext (by
    match a with
    | ⟨0, _⟩ => rfl
    | ⟨1, _⟩ => rfl)
  have eb : idx_main_v21 (idx_main_v22 (idx_main_v24 (ix1 e))) = ix1 (0 : Fin 1) := funext fun a => Fin.ext (by
    match a with
    | ⟨0, _⟩ => rfl)
  unfold score
  refine congrArg₂ (· + ·) ?_ (congrArg x3 eb)
  have hterm : ∀ k : Fin 256, val_main_v18 (F := Ideal) x0 x1 (lidx_main_v20 (idx_main_v24 (ix1 e)) k) * val_main_v19 (F := Ideal) x2 (ridx_main_v20 (idx_main_v24 (ix1 e)) k)
      = (if h : k.val < 128 then val_main_v8 (F := Ideal) x0 x1 (ix2 e (⟨k.val, h⟩ : Fin 128)) else val_main_v17 (F := Ideal) x0 x1 (ix2 e (⟨k.val - 128, by omega⟩ : Fin 128)))
        * x2 (ix2 (0 : Fin 1) k) := fun k => by
    rw [val_main_v19_apply, er k, el k]
    unfold val_main_v18
    rw [joined_apply]
  rw [Finset.sum_congr rfl fun k _ => hterm k]
  exact contract_concat (fun k => val_main_v8 (F := Ideal) x0 x1 (ix2 e k)) (fun k => val_main_v17 (F := Ideal) x0 x1 (ix2 e k))
    (fun k => x2 (ix2 (0 : Fin 1) k))

end Cert.ReferenceIdeal.RefValue

end
-- ==== Proof.Bridge.lean ====
/-
  THE TWO PROGRAMS COMPUTE ONE FUNCTION.

  The reference gathers the same feature rows by the same wrapped index words as the kernel's program, and scatters by
  the same two index rows into the same zero matrix; between the gather and the scatter its score of edge `e` is `score`
  of the gathered arrays (the joined contraction split at 128), which is what the kernel's region leaves at `(0, e)`. So
  the reference's result is the kernel program's `result` of the same four arguments.
-/
import proofs.«119529_j29703993819993_1_alg».proof.Proof.KernelGlue
import proofs.«119529_j29703993819993_1_alg».proof.Proof.RefValue

noncomputable section

namespace Cert.Bridge

open Idealize.ShloMosaic Idealize.ShloMosaic.ValueIdx
open Cert.ReferenceIdeal Cert.ReferenceIdeal.Read

/-- The reference's first gather is the kernel program's: the same operation on the same wrapped first row. -/
theorem gather0_eq (x0 : (⟨S16384x128, .f32⟩ : BufTy).Contents (Elt Ideal)) (x1 : (⟨S2x524288, .i32⟩ : BufTy).Contents (Elt Ideal)) :
    val_main_v8 (F := Ideal) x0 x1 = Cert.KernelIdeal.Glue.gatherRows x0 (Cert.KernelIdeal.Glue.idxRow0 x1) := rfl
/-- And the second, on the second row. -/
theorem gather1_eq (x0 : (⟨S16384x128, .f32⟩ : BufTy).Contents (Elt Ideal)) (x1 : (⟨S2x524288, .i32⟩ : BufTy).Contents (Elt Ideal)) :
    val_main_v17 (F := Ideal) x0 x1 = Cert.KernelIdeal.Glue.gatherRows x0 (Cert.KernelIdeal.Glue.idxRow1 x1) := rfl

/-- Edge by edge the reference's scores are the kernel program's. -/
theorem scores_eq (x0 : (⟨S16384x128, .f32⟩ : BufTy).Contents (Elt Ideal)) (x1 : (⟨S2x524288, .i32⟩ : BufTy).Contents (Elt Ideal))
    (x2 : (⟨S1x256, .f32⟩ : BufTy).Contents (Elt Ideal)) (x3 : (⟨S1, .f32⟩ : BufTy).Contents (Elt Ideal)) :
    val_main_v24 (F := Ideal) x0 x1 x2 x3 = Cert.KernelIdeal.Glue.edgeScores x0 x1 x2 x3 := by
  funext i
  obtain ⟨e, rfl⟩ : ∃ e : Fin 524288, i = ix1 e := ⟨i 0, eq_ix1 i⟩
  rw [Cert.ReferenceIdeal.RefValue.temp_apply, gather0_eq, gather1_eq]
  rfl

/-- THE REFERENCE'S RESULT is the kernel program's `result`: equal scores scattered by the same index rows. -/
theorem ref_eq (x0 : (⟨S16384x128, .f32⟩ : BufTy).Contents (Elt Ideal)) (x1 : (⟨S2x524288, .i32⟩ : BufTy).Contents (Elt Ideal))
    (x2 : (⟨S1x256, .f32⟩ : BufTy).Contents (Elt Ideal)) (x3 : (⟨S1, .f32⟩ : BufTy).Contents (Elt Ideal)) :
    val_main_v43 (F := Ideal) x0 x1 x2 x3 = Cert.KernelIdeal.Glue.result x0 x1 x2 x3 := by
  unfold val_main_v43
  rw [scores_eq]
  rfl

end Cert.Bridge

end
-- ==== Proof.lean ====
/- The proof of `Cert.Claim` (proofs.«119529_j29703993819993_1_alg».proof.Defs).

   The kernel scores every edge of a graph by a linear layer on its two endpoints' features, and adds the scores into a
   dense adjacency matrix. Both programs gather the endpoint feature rows and scatter the scores by the same host
   operations on the same index words; they differ only in how the score of an edge is computed:

     kernel     (∑ k < 128, W k · f1 e k  +  ∑ k < 128, W (128 + k) · f2 e k) + b      (two half products per block of 8192 edges)
     reference  ∑ k < 256, [f1 e | f2 e] k · W k  +  b                                  (one product over the joined row)

   On the extended reals these are equal by splitting the sum over 256 indices at 128 and commuting each product
   (Proof/EdgeScore.lean): no law that needs finite inputs. Proof/KernelBody.lean reads the body's stored value at an edge,
   Proof/KernelArray.lean assembles the 64 blocks into the region's result array, Proof/KernelGlue.lean reads the host
   operations around the region and re-posts the generated frame run at the program's value, Proof/RefValue.lean reads the
   reference's score at an edge over the generated reads, and Proof/Bridge.lean joins the two.

   The three frames are the generated ones (the reference's is its generated run with the result dropped); the ideal pass
   rewrote nothing, so `preserves` is `True`. -/
import proofs.«119529_j29703993819993_1_alg».proof.Defs
import proofs.«119529_j29703993819993_1_alg».proof.Proof.Gen.Kernel
import proofs.«119529_j29703993819993_1_alg».proof.Proof.Gen.Kernel.Skeleton
import proofs.«119529_j29703993819993_1_alg».proof.Proof.Gen.Kernel.Launch
import proofs.«119529_j29703993819993_1_alg».proof.Proof.Gen.Kernel.Points
import proofs.«119529_j29703993819993_1_alg».proof.Proof.Gen.Kernel.Frame
import proofs.«119529_j29703993819993_1_alg».proof.Proof.Gen.KernelIdeal
import proofs.«119529_j29703993819993_1_alg».proof.Proof.Gen.KernelIdeal.Skeleton
import proofs.«119529_j29703993819993_1_alg».proof.Proof.Gen.KernelIdeal.Launch
import proofs.«119529_j29703993819993_1_alg».proof.Proof.Gen.KernelIdeal.Points
import proofs.«119529_j29703993819993_1_alg».proof.Proof.Gen.KernelIdeal.Frame
import proofs.«119529_j29703993819993_1_alg».proof.Proof.Gen.ReferenceIdeal
import proofs.«119529_j29703993819993_1_alg».proof.Proof.Gen.Pre_finite_inputs
import proofs.«119529_j29703993819993_1_alg».proof.Proof.Gen.ReferenceIdeal.Run
import proofs.«119529_j29703993819993_1_alg».proof.Proof.Gen.ReferenceIdeal.Read
import proofs.«119529_j29703993819993_1_alg».proof.Proof.KernelGlue
import proofs.«119529_j29703993819993_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ
/-- So does the idealized one. -/
theorem frame_ki : Cert.frame_KernelIdeal := fun m ρ _ => Cert.KernelIdeal.Gen.frame m ρ
/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the scores of all edges, computed as `score`, scattered into the zero
    matrix by the two index rows: the kernel program by its run read through the region, the reference by its generated
    run, whose term is the same function of arguments that agree. -/
theorem algebraic : Cert.algebraic_KernelIdeal_ReferenceIdeal := by
  intro m ρ m' ρ' _ hagree
  refine ⟨fun c => Cert.KernelIdeal.Glue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Glue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v43_eq _ _ _ _).trans (Cert.Bridge.ref_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
